-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 0#32
  let main_v36 : IVec S800000 32 := broadcastInDim S800000 ![] bcast_S_S800000 main_c_12
  let main_v37 : IVec S800000 1 := cmpi .sge main_v35 main_v36
  let main_c_13 : IVec S_ 1 := constantI S_ 1 1#1
  let main_v38 : IVec S_ 1 := (fun x v => Host.reduce IntOp.andi x v reducesTo_S800000_S_d0 h_S_) main_v37 main_c_13
  let main_v39 : IVec S_ 1 := andi main_v33 main_v38
  main_v39

def fn_part1 {F : FTy → Type} [FloatOps F] (main_arg1 : IVec S2x800000 32) (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S5000x128 : Shape := ⟨2, ![5000, 128]⟩
abbrev S5000x1 : Shape := ⟨2, ![5000, 1]⟩
abbrev S1x128 : Shape := ⟨2, ![1, 128]⟩
abbrev S50000x64 : Shape := ⟨2, ![50000, 64]⟩
abbrev S5000x64 : Shape := ⟨2, ![5000, 64]⟩
abbrev S1x64 : Shape := ⟨2, ![1, 64]⟩

abbrev nBuf : Space → Nat
  | .hbm => 39
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x128, .f32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x64, .f32⟩
  | .local _ .vmem, ⟨18, _⟩ => ⟨S128x64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call0_v0 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call1_v0 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S800000, .f32⟩
  | .hbm, ⟨48, _⟩ => ⟨S_, .f32⟩
  | .hbm, ⟨49, _⟩ => ⟨S50000, .f32⟩
  | .hbm, ⟨50, _⟩ => ⟨S800000x1, .i32⟩
  | .hbm, ⟨51, _⟩ => ⟨S50000, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_c_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.EntryContents.lean ====
/-
  What the two kernel launches find in their operand arrays.

  Before the first launch the host computes, from the edge list alone, the column r of reciprocal clamped in-degrees
  (a scatter-add of ones by destination id, clamped below at 1, then 1 / that), and, from the node features x, the
  neighbour sums: rows of x taken at the source ids, scatter-added by destination id. The first launch reads those two, x,
  and the first layer's weights and bias. Between the launches the host takes rows of the first launch's result in the same
  way; the second launch reads that sum, the same column r, the first launch's result, and the second layer's weights and
  bias. Nothing else is written to any of these arrays.
-/
import proofs.«401144_j75273596830171_2_alg».proof.Proof.Gen.KernelIdeal.Frame
import Idealize.ShloMosaic.Lib.StableHlo.Run

set_option maxRecDepth 16384

noncomputable section

namespace Cert.KernelIdeal.Entry

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The edges' source ids: row 0 of the edge list. -/
def srcVec (c : Dev nD) : IVec S800000 32 :=
  shapeCast S800000 (extractStridedSlice S1x800000 ![0, 0] (m ((c : Thread nD τ).loc main_arg1)) slices_S2x800000_S1x800000_0_0) shapeCasts_S1x800000_S800000

/-- The edges' destination ids: row 1 of the edge list. -/
def dstVec (c : Dev nD) : IVec S800000 32 :=
  shapeCast S800000 (extractStridedSlice S1x800000 ![1, 0] (m ((c : Thread nD τ).loc main_arg1)) slices_S2x800000_S1x800000_1_0) shapeCasts_S1x800000_S800000

/-- Rows of `h` taken at the source ids, summed into the rows named by the destination ids. -/
def gatherSum (h : FVec F S50000x128 .f32) (c : Dev nD) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dstVec m c))
    (Host.gather gather_S50000x128_S800000x1_S800000x128_1_0_n_n_0_1_1128 h
      (broadcastInDim S800000x1 ![0] bcast_S800000_S800000x1_0 (srcVec m c)))

/-- The in-degrees clamped below at 1. -/
def degMax (c : Dev nD) : FVec F S50000 .f32 :=
  maximumf
    (Host.scatterAdd scatter_S50000_S800000x1_S800000_n_0_0_1
      (broadcastInDim S50000 ![] bcast_S_S50000 (constant S_ .f32 0x00000000#32))
      (broadcastInDim S800000x1 ![0] bcast_S800000_S800000x1_0 (dstVec m c))
      (broadcastInDim S800000 ![] bcast_S_S800000 (constant S_ .f32 0x3F800000#32)))
    (broadcastInDim S50000 ![] bcast_S_S50000 (constant S_ .f32 0x3F800000#32))

/-- The column of reciprocal clamped in-degrees. -/
def invDeg (c : Dev nD) : FVec F S50000x1 .f32 :=
  broadcastInDim S50000x1 ![0] bcast_S50000_S50000x1_0
    (Host.divf (broadcastInDim S50000 ![] bcast_S_S50000 (constant S_ .f32 0x3F800000#32)) (degMax m c))

/-! ## At the first launch -/

theorem W3_v1 (c : Dev nD) : W3 m ρ c (Proc.devRef .tc main_v1) = srcVec m c := by
  dsimp only [W3, W2, W1, W0, hostOps0_2, hostOps0_1, hostOps0]
  after_results
  rfl

theorem W3_v3 (c : Dev nD) : W3 m ρ c (Proc.devRef .tc main_v3) = dstVec m c := by
  dsimp only [W3, W2, W1, W0, hostOps0_2, hostOps0_1, hostOps0]
  after_results
  rfl

theorem V3_v16 (c : Dev nD) : V3 m ρ c main_v16 = gatherSum m (m ((c : Thread nD τ).loc main_arg0)) c := by
  show W3 m ρ c (Proc.devRef .tc main_v16) = _
  dsimp only [W3, W2, W1, W0, hostOps0_2, hostOps0_1, hostOps0]
  after_results
  rfl

theorem V3_v12 (c : Dev nD) : V3 m ρ c main_v12 = invDeg m c := by
  show W3 m ρ c (Proc.devRef .tc main_v12) = _
  dsimp only [W3, W2, W1, W0, hostOps0_2, hostOps0_1, hostOps0]
  after_results
  rfl

theorem V3_arg0 (c : Dev nD) : V3 m ρ c main_arg0 = m ((c : Thread nD τ).loc main_arg0) := by
  show W3 m ρ c (Proc.devRef .tc main_arg0) = _
  dsimp only [W3, W2, W1, W0, hostOps0_2, hostOps0_1, hostOps0]
  after_results

theorem V3_arg2 (c : Dev nD) : V3 m ρ c main_arg2 = m ((c : Thread nD τ).loc main_arg2) := by
  show W3 m ρ c (Proc.devRef .tc main_arg2) = _
  dsimp only [W3, W2, W1, W0, hostOps0_2, hostOps0_1, hostOps0]
  after_results

theorem V3_arg3 (c : Dev nD) : V3 m ρ c main_arg3 = m ((c : Thread nD τ).loc main_arg3) := by
  show W3 m ρ c (Proc.devRef .tc main_arg3) = _
  dsimp only [W3, W2, W1, W0, hostOps0_2, hostOps0_1, hostOps0]
  after_results

theorem V3_arg4 (c : Dev nD) : V3 m ρ c main_arg4 = m ((c : Thread nD τ).loc main_arg4) := by
  show W3 m ρ c (Proc.devRef .tc main_arg4) = _
  dsimp only [W3, W2, W1, W0, hostOps0_2, hostOps0_1, hostOps0]
  after_results

/-! ## At the second launch -/

/-- What the first launch leaves in its result array. -/
abbrev hiddenOut (c : Dev nD) : FVec F S50000x128 .f32 := (dat0 (V3 m ρ) c).arrAt 6 cfg0.N

theorem W4_v17 (c : Dev nD) : W4 m ρ c (Proc.devRef .tc main_v17) = hiddenOut m ρ c := W4_arr m ρ c 6

theorem W4_v12 (c : Dev nD) : W4 m ρ c (Proc.devRef .tc main_v12) = invDeg m c :=
  (W4_arr m ρ c 1).trans ((((dat0 (V3 m ρ) c).arrAt_in 1 rfl _).trans (A_eq0 (V3 m ρ) c 1)).trans (V3_v12 m ρ c))

theorem W4_v1 (c : Dev nD) : W4 m ρ c (Proc.devRef .tc main_v1) = srcVec m c :=
  (W4_of_ne m ρ c main_v1 (by decide)).trans (W3_v1 m ρ c)

theorem W4_v3 (c : Dev nD) : W4 m ρ c (Proc.devRef .tc main_v3) = dstVec m c :=
  (W4_of_ne m ρ c main_v3 (by decide)).trans (W3_v3 m ρ c)

theorem W4_arg5 (c : Dev nD) : W4 m ρ c (Proc.devRef .tc main_arg5) = m ((c : Thread nD τ).loc main_arg5) := by
  refine (W4_of_ne m ρ c main_arg5 (by decide)).trans ?_
  dsimp only [W3, W2, W1, W0, hostOps0_2, hostOps0_1, hostOps0]
  after_results

theorem W4_arg6 (c : Dev nD) : W4 m ρ c (Proc.devRef .tc main_arg6) = m ((c : Thread nD τ).loc main_arg6) := by
  refine (W4_of_ne m ρ c main_arg6 (by decide)).trans ?_
  dsimp only [W3, W2, W1, W0, hostOps0_2, hostOps0_1, hostOps0]
  after_results

theorem W4_arg7 (c : Dev nD) : W4 m ρ c (Proc.devRef .tc main_arg7) = m ((c : Thread nD τ).loc main_arg7) := by
  refine (W4_of_ne m ρ c main_arg7 (by decide)).trans ?_
  dsimp only [W3, W2, W1, W0, hostOps0_2, hostOps0_1, hostOps0]
  after_results

theorem V6_v21 (c : Dev nD) : V6 m ρ c main_v21 = gatherSum m (hiddenOut m ρ c) c := by
  show W6 m ρ c (Proc.devRef .tc main_v21) = _
  dsimp only [W6, W5, hostOps1_1, hostOps1]
  after_results
  rw [W4_v3, W4_v1, W4_v17]
  rfl

theorem V6_v12 (c : Dev nD) : V6 m ρ c main_v12 = invDeg m c := by
  show W6 m ρ c (Proc.devRef .tc main_v12) = _
  dsimp only [W6, W5, hostOps1_1, hostOps1]
  after_results
  exact W4_v12 m ρ c

theorem V6_v17 (c : Dev nD) : V6 m ρ c main_v17 = hiddenOut m ρ c := by
  show W6 m ρ c (Proc.devRef .tc main_v17) = _
  dsimp only [W6, W5, hostOps1_1, hostOps1]
  after_results
  exact W4_v17 m ρ c

theorem V6_arg5 (c : Dev nD) : V6 m ρ c main_arg5 = m ((c : Thread nD τ).loc main_arg5) := by
  show W6 m ρ c (Proc.devRef .tc main_arg5) = _
  dsimp only [W6, W5, hostOps1_1, hostOps1]
  after_results
  exact W4_arg5 m ρ c

theorem V6_arg6 (c : Dev nD) : V6 m ρ c main_arg6 = m ((c : Thread nD τ).loc main_arg6) := by
  show W6 m ρ c (Proc.devRef .tc main_arg6) = _
  dsimp only [W6, W5, hostOps1_1, hostOps1]
  after_results
  exact W4_arg6 m ρ c

theorem V6_arg7 (c : Dev nD) : V6 m ρ c main_arg7 = m ((c : Thread nD τ).loc main_arg7) := by
  show W6 m ρ c (Proc.devRef .tc main_arg7) = _
  dsimp only [W6, W5, hostOps1_1, hostOps1]
  after_results
  exact W4_arg7 m ρ c

/-- The result array at the last boundary is what the second launch leaves in it. -/
theorem W7_v22 (c : Dev nD) : W7 m ρ c (Proc.devRef .tc main_v22) = (dat1 (V6 m ρ) c).arrAt 6 cfg1.N := W7_arr m ρ c 6

end Cert.KernelIdeal.Entry

end
-- ==== Proof.LayerSpec.lean ====
/-
  Two layers of mean-aggregating graph convolution over 50000 nodes, stated index by index on the extended reals.

  For a node p and an output feature q, with s the summed neighbour features, r the column of reciprocal
  (clamped) in-degrees, x the node's own features, wl / wr the two weight matrices and b the bias:

      feature p q = (Σ_k (s[p,k] · r[p]) · wl[k,q]  +  Σ_k x[p,k] · wr[k,q])  +  b[q]

  The hidden layer (128 features) clamps this below at 0; the output layer (64 features) does not.
  Also here: the two scalar laws that join a quotient by the clamped degree to a product with its reciprocal.
-/
import Idealize.ShloMosaic.PureOps.Ideal
import Idealize.ShloMosaic.Lib.ValueIdx

noncomputable section

open scoped BigOperators

namespace Cert.Sage

open Idealize.ShloMosaic Idealize.ShloMosaic.ValueIdx

/-- The affine part of one node's new feature: the degree-scaled aggregate through `wl`, the node's own row through `wr`,
    then the bias. `n` output features. -/
def feature {n : Nat} (s : (⟨2, ![50000, 128]⟩ : Shape).Idx → EReal) (r : (⟨2, ![50000, 1]⟩ : Shape).Idx → EReal)
    (x : (⟨2, ![50000, 128]⟩ : Shape).Idx → EReal) (wl wr : (⟨2, ![128, n]⟩ : Shape).Idx → EReal)
    (b : (⟨1, ![n]⟩ : Shape).Idx → EReal) (p : Fin 50000) (q : Fin n) : EReal :=
  ((∑ k : Fin 128, (s (ix2 p k) * r (ix2 p (0 : Fin 1))) * wl (ix2 k q)) + ∑ k : Fin 128, x (ix2 p k) * wr (ix2 k q)) + b (ix1 q)

/-- The hidden layer as an array: the affine feature clamped below at 0. -/
def hiddenArr (s : (⟨2, ![50000, 128]⟩ : Shape).Idx → EReal) (r : (⟨2, ![50000, 1]⟩ : Shape).Idx → EReal)
    (x : (⟨2, ![50000, 128]⟩ : Shape).Idx → EReal) (wl wr : (⟨2, ![128, 128]⟩ : Shape).Idx → EReal)
    (b : (⟨1, ![128]⟩ : Shape).Idx → EReal) : (⟨2, ![50000, 128]⟩ : Shape).Idx → EReal :=
  fun i => max (feature s r x wl wr b (i 0) (i 1)) 0

/-- The output layer as an array: the affine feature itself. -/
def outputArr (s : (⟨2, ![50000, 128]⟩ : Shape).Idx → EReal) (r : (⟨2, ![50000, 1]⟩ : Shape).Idx → EReal)
    (x : (⟨2, ![50000, 128]⟩ : Shape).Idx → EReal) (wl wr : (⟨2, ![128, 64]⟩ : Shape).Idx → EReal)
    (b : (⟨1, ![64]⟩ : Shape).Idx → EReal) : (⟨2, ![50000, 64]⟩ : Shape).Idx → EReal :=
  fun i => feature s r x wl wr b (i 0) (i 1)

/-- Off zero a quotient is the product with the reciprocal, at the infinities too: both are `s · d⁻¹`. -/
theorem div_eq_mul_one_div {s d : EReal} (hd : d ≠ 0) : Ideal.div s d = s * Ideal.div 1 d := by
  unfold Ideal.div
  rw [if_neg hd, if_neg hd, one_mul]

/-- A degree clamped below at 1 is never zero. -/
theorem max_one_ne_zero (d : EReal) : max d 1 ≠ 0 := by
  have h : (0 : EReal) < max d 1 := lt_of_lt_of_le zero_lt_one (le_max_right d 1)
  exact ne_of_gt h

/-- The two orders in which the bias and the node's own term are added agree: addition of extended reals is
    commutative and associative. -/
theorem add_bias_comm (a b x : EReal) : (a + b) + x = (a + x) + b := add_right_comm a b x

end Cert.Sage

end
-- ==== Proof.Payload.lean ====
/-
  The two kernel bodies' stored values read at one element, on the extended reals.

  Each body multiplies the block of summed neighbour features by the column of reciprocal degrees (broadcast along the
  row), sends that and the block of own features through the matrix unit (two products into zero accumulators, the
  changes of float format being the identity here), adds the two products and then the bias row; the hidden layer's body
  then clamps below at 0. Read at row p, column q of the block this is

      (Σ_k (v0[p,k] · v2[p,0]) · wl[k,q]  +  Σ_k v7[p,k] · wr[k,q])  +  b[q]        (clamped at 0 for the hidden layer).
-/
import proofs.«401144_j75273596830171_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Sage.Payload

open Idealize.ShloMosaic Idealize.ShloMosaic.ValueIdx Cert.KernelIdeal Cert.KernelIdeal.Gen

/-! ## The column of reciprocal degrees spread along the row -/

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two contractions: which operand axis reads which coordinate -/

/-- Axis 0 of the left operand is not contracted: the left index keeps the output's row. -/
theorem lhs_wide_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Axis 1 of the left operand is the one contracted axis: the left index takes the contraction position there. -/
theorem lhs_wide_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Axis 0 of the right operand is the one contracted axis: the right index takes the contraction position there. -/
theorem rhs_wide_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Axis 1 of the right operand is not contracted: the right index keeps the output's column. -/
theorem rhs_wide_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product into the zero accumulator, read at (p, q): the sum over the 128 contracted positions of
    the left operand's row p times the right operand's column q. -/
theorem matmul_wide_apply (lhs : FVec Ideal S5000x128 .bf16) (rhs : FVec Ideal S128x128 .bf16) (p : Fin 5000) (q : Fin 128) :
    FloatOps.matmul dot_S5000x128_S128x128_S5000x128_1_0_0_1_n_n none lhs rhs (constant (F := Ideal) S5000x128 .f32 0x00000000#32) (ix2 p q)
      = ∑ k : Fin 128, lhs (ix2 p k) * rhs (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_wide_0 _ _
    | ⟨1, _⟩ => exact (lhs_wide_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_wide_0 _ _).trans hk
    | ⟨1, _⟩ => exact rhs_wide_1 _ _)
  rw [el, er]

/-- Axis 0 of the left operand is not contracted: the left index keeps the output's row. -/
theorem lhs_narrow_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- Axis 1 of the left operand is the one contracted axis: the left index takes the contraction position there. -/
theorem lhs_narrow_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- Axis 0 of the right operand is the one contracted axis: the right index takes the contraction position there. -/
theorem rhs_narrow_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- Axis 1 of the right operand is not contracted: the right index keeps the output's column. -/
theorem rhs_narrow_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix unit's product into the zero accumulator, read at (p, q): the sum over the 128 contracted positions of
    the left operand's row p times the right operand's column q. -/
theorem matmul_narrow_apply (lhs : FVec Ideal S5000x128 .bf16) (rhs : FVec Ideal S128x64 .bf16) (p : Fin 5000) (q : Fin 64) :
    FloatOps.matmul dot_S5000x128_S128x64_S5000x64_1_0_0_1_n_n none lhs rhs (constant (F := Ideal) S5000x64 .f32 0x00000000#32) (ix2 p q)
      = ∑ k : Fin 128, lhs (ix2 p k) * rhs (ix2 k q) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_narrow_0 _ _
    | ⟨1, _⟩ => exact (lhs_narrow_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_narrow_0 _ _).trans hk
    | ⟨1, _⟩ => exact rhs_narrow_1 _ _)
  rw [el, er]

/-! ## The stored values -/

/-- The hidden layer's stored block at (p, q). -/
theorem hidden_payload_apply (v0 : Vec Ideal S5000x128 .f32) (v2 : Vec Ideal S5000x1 .f32) (v7 : Vec Ideal S5000x128 .f32)
    (v9 v11 : Vec Ideal S128x128 .f32) (v16 : Vec Ideal S128 .f32) (p : Fin 5000) (q : Fin 128) :
    k0_pay1 (F := Ideal) v0 v2 v7 v9 v11 v16 (ix2 p q)
      = max (((∑ k : Fin 128, (v0 (ix2 p k) * v2 (ix2 p (0 : Fin 1))) * v9 (ix2 k q))
          + ∑ k : Fin 128, v7 (ix2 p k) * v11 (ix2 k q)) + v16 (ix1 q)) 0 := by
  unfold k0_pay1
  simp only [maximumf_apply, addf_apply, broadcast_apply, matmul_wide_apply, truncf_apply, mulf_apply,
    shapeCast_self, broadcastTo_a1_ab_apply, broadcastTo_1b_ab_apply, shapeCast_a_1a_apply]
  exact congrArg (max _) Ideal.ofBits_zero_f32

/-- The output layer's stored block at (p, q). -/
theorem output_payload_apply (v0 : Vec Ideal S5000x128 .f32) (v2 : Vec Ideal S5000x1 .f32) (v7 : Vec Ideal S5000x128 .f32)
    (v10 v12 : Vec Ideal S128x64 .f32) (v17 : Vec Ideal S64 .f32) (p : Fin 5000) (q : Fin 64) :
    k1_pay1 (F := Ideal) v0 v2 v7 v10 v12 v17 (ix2 p q)
      = ((∑ k : Fin 128, (v0 (ix2 p k) * v2 (ix2 p (0 : Fin 1))) * v10 (ix2 k q))
          + ∑ k : Fin 128, v7 (ix2 p k) * v12 (ix2 k q)) + v17 (ix1 q) := by
  unfold k1_pay1
  simp only [addf_apply, matmul_narrow_apply, truncf_apply, mulf_apply,
    shapeCast_self, broadcastTo_a1_ab_apply, broadcastTo_1b_ab_apply, shapeCast_a_1a_apply]

end Cert.Sage.Payload

end
-- ==== Proof.HiddenValue.lean ====
/-
  The first launch (the hidden layer): what its result array holds afterwards, as one function of its operand arrays.

  The launch walks 10 grid points; at point t every row-blocked operand and the result are at block row t (rows
  5000·t … 5000·t + 4999), the weights and the bias at their one block. So what point t writes back, read at row p
  and column q of the block, is the layer's feature for node 5000·t + p, and the 10 blocks tile the 50000 rows: the
  result array ends holding the layer's feature array of the operand arrays as the launch found them.
-/
import proofs.«401144_j75273596830171_2_alg».proof.Proof.Gen.KernelIdeal.Frame
import proofs.«401144_j75273596830171_2_alg».proof.Proof.LayerSpec
import proofs.«401144_j75273596830171_2_alg».proof.Proof.Payload
import Idealize.ShloMosaic.Lib.Pipeline.Value
import Idealize.ShloMosaic.Lib.ValueIdx

set_option maxRecDepth 16384

noncomputable section

open scoped BigOperators

namespace Cert.KernelIdeal.Hidden

open Idealize.ShloMosaic Idealize.ShloMosaic.TcCoe Idealize.SL.Sem Idealize.ShloMosaic.ValueIdx
open Idealize.ShloMosaic.Pipeline (Dat Cfg Window)
open Cert.KernelIdeal Cert.KernelIdeal.Gen

-- the contents of the core's buffers when the launch is entered
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The operand arrays, by their literal types -/

abbrev sArr (c : Dev nD) : FVec Ideal S50000x128 .f32 := V c main_v16
abbrev rArr (c : Dev nD) : FVec Ideal S50000x1 .f32 := V c main_v12
abbrev xArr (c : Dev nD) : FVec Ideal S50000x128 .f32 := V c main_arg0
abbrev wlArr (c : Dev nD) : FVec Ideal S128x128 .f32 := V c main_arg2
abbrev wrArr (c : Dev nD) : FVec Ideal S128x128 .f32 := V c main_arg3
abbrev bArr (c : Dev nD) : FVec Ideal S128 .f32 := V c main_arg4

/-- The layer's feature array of the operand arrays. -/
abbrev layerArr (c : Dev nD) : FVec Ideal S50000x128 .f32 :=
  Cert.Sage.hiddenArr (sArr V c) (rArr V c) (xArr V c) (wlArr V c) (wrArr V c) (bArr V c)

/-! ## The printed index maps, decided once over the 10 grid points -/

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem point_lt (t : Fin cfg0.N) : t.val < 10 := by
  have h : cfg0.N = 10 := N_0
  have := t.isLt
  omega

/-- Node `5000·t + p`: row `p` of block row `t`. -/
def row (t : Fin cfg0.N) (p : Fin 5000) : Fin 50000 := ⟨t.val * 5000 + p.val, by have := point_lt t; have := p.isLt; omega⟩

/-! ## Each operand block read where the result's block says -/

theorem read_s (c : Dev nD) (t : Fin cfg0.N) (p : Fin 5000) (k : Fin 128) :
    iblk0 V c 0 t (ix2 p k) = sArr V c (ix2 (row t p) k) := by
  obtain ⟨e0, e1, -⟩ := idx_facts t
  show V c main_v16 (((cfg0.win 0).blk t).view.emb (ix2 p k)) = V c main_v16 (ix2 (row t p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

theorem read_r (c : Dev nD) (t : Fin cfg0.N) (p : Fin 5000) :
    iblk0 V c 1 t (ix2 p (0 : Fin 1)) = rArr V c (ix2 (row t p) (0 : Fin 1)) := by
  obtain ⟨-, -, e0, e1, -⟩ := idx_facts t
  show V c main_v12 (((cfg0.win 1).blk t).view.emb (ix2 p (0 : Fin 1))) = V c main_v12 (ix2 (row t p) (0 : Fin 1))
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * 0 = 0; omega

theorem read_x (c : Dev nD) (t : Fin cfg0.N) (p : Fin 5000) (k : Fin 128) :
    iblk0 V c 2 t (ix2 p k) = xArr V c (ix2 (row t p) k) := by
  obtain ⟨-, -, -, -, e0, e1, -⟩ := idx_facts t
  show V c main_arg0 (((cfg0.win 2).blk t).view.emb (ix2 p k)) = V c main_arg0 (ix2 (row t p) k)
  refine congrArg _ (funext fun a => Fin.ext ?_)
  match a with
  | ⟨0, _⟩ => show win0_2.index t (0 : Fin 2) * 5000 + 1 * p.val = t.val * 5000 + p.val; omega
  | ⟨1, _⟩ => show win0_2.index t (1 : Fin 2) * 128 + 1 * k.val = k.val; omega

theorem read_wl (c : Dev nD) (t : Fin cfg0.N) (k : Fin 128) (q : Fin 128) :
    iblk0 V c 3 t (ix2 k q) = wlArr V c (ix2 k q) := by
  obtain ⟨-, -, -, -, -, -, e0, e1, -⟩ := idx_facts t
  show V c main_arg2 (((cfg0.win 3).blk t).view.emb (ix2 k q)) = V c main_arg2 (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem read_wr (c : Dev nD) (t : Fin cfg0.N) (k : Fin 128) (q : Fin 128) :
    iblk0 V c 4 t (ix2 k q) = wrArr V c (ix2 k q) := by
  obtain ⟨-, -, -, -, -, -, -, -, e0, e1, -⟩ := idx_facts t
  show V c main_arg3 (((cfg0.win 4).blk t).view.emb (ix2 k q)) = V c main_arg3 (ix2 k q)
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

theorem read_b (c : Dev nD) (t : Fin cfg0.N) (q : Fin 128) :
    iblk0 V c 5 t (ix1 q) = bArr V c (ix1 q) := by
  obtain ⟨-, -, -, -, -, -, -, -, -, -, e0, -⟩ := idx_facts t
  show V c main_arg4 (((cfg0.win 5).blk t).view.emb (ix1 q)) = V c main_arg4 (ix1 q)
  refine congrArg _ (funext fun a => Fin.ext ?_)
  match a with
  | ⟨0, _⟩ => show win0_5.index t (0 : Fin 1) * 128 + 1 * q.val = q.val; omega

/-- Row `p`, column `q` of the result's block at point `t` is entry (5000·t + p, q) of the array. -/
theorem emb_out (t : Fin cfg0.N) (p : Fin 5000) (q : Fin 128) :
    ((cfg0.win 6).blk t).view.emb (ix2 p q) = ix2 (row t p) q := by
  obtain ⟨-, -, -, -, -, -, -, -, -, -, -, e0, e1⟩ := idx_facts t
  refine funext fun a => Fin.ext ?_
  match a with
  | ⟨0, _⟩ => show win0_6.index t (0 : Fin 2) * 5000 + 1 * p.val = t.val * 5000 + p.val; omega
  | ⟨1, _⟩ => show win0_6.index t (1 : Fin 2) * 128 + 1 * q.val = q.val; omega

/-! ## What a point writes back -/

/-- Point `t` writes back block `t` of the layer's feature array. -/
theorem flushed_eq (c : Dev nD) (t : Fin cfg0.N) :
    (dat0 V c).flushed 6 t = ((cfg0.win 6).blk t).view.read (Elt Ideal) (layerArr V c) := by
  show (cfg0.win 6).cut (grid0.coords t) ((dat0 V c).after 6 t) = _
  rw [after0_6]
  unfold out0_6
  rw [View.canon_unit_zero hz2]
  simp only [View.ld_unit_zero (S := S5000x128) hz2, View.ld_unit_zero (S := S5000x1) hz2,
    View.ld_unit_zero (S := S128x128) hz2, View.ld_unit_zero (S := S128) hz1]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 4 t) (iblk0 V c 5 t) (ix2 p q)
    = layerArr V c (((cfg0.win 6).blk t).view.emb (ix2 p q))
  rw [emb_out t p q]
  refine (Cert.Sage.Payload.hidden_payload_apply (iblk0 V c 0 t) (iblk0 V c 1 t) (iblk0 V c 2 t) (iblk0 V c 3 t)
    (iblk0 V c 4 t) (iblk0 V c 5 t) p q).trans ?_
  simp only [read_s V c t p, read_r V c t p, read_x V c t p, read_wl V c t, read_wr V c t, read_b V c t]
  rfl

/-! ## The blocks tile the array -/

theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v17).slice (win0_6.rect t)).set ↔ _
  rw [View.set_slice_whole, Rect.mem_set_unit]
  exact Iff.rfl

/-- Every entry of the result array is in the block of the point its row falls in. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  let t : Fin cfg0.N := ⟨(i 0).val / 5000, by omega⟩
  obtain ⟨-, -, -, -, -, -, -, -, -, -, -, e0, e1⟩ := idx_facts t
  have ht : t.val = (i 0).val / 5000 := rfl
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-! ## The result array after the launch -/

/-- After the launch the result array holds the layer's feature array of the operand arrays as the launch found them. -/
theorem final (c : Dev nD) : (dat0 V c).arrAt 6 cfg0.N = layerArr V c :=
  (dat0 V c).arrAt_eq_of_cover 6 (layerArr V c) (fun t _ => flushed_eq V c t) cover

end Cert.KernelIdeal.Hidden

end
-- ==== Proof.OutputValue.lean ====
/-
  The second launch (the output layer): what its result array holds afterwards, as one function of its operand arrays.

  The launch walks 10 grid points; at point t every row-blocked operand and the result are at block row t (rows
  5000·t … 5000·t + 4999), the weights and the bias at their one block. So what point t writes back, read at row p
  and column q of the block, is the layer's feature for node 5000·t + p, and the 10 blocks tile the 50000 rows: the
  result array ends holding the layer's feature array of the operand arrays as the launch found them.
-/
import proofs.«401144_j75273596830171_2_alg».proof.Proof.Gen.KernelIdeal.Frame
import proofs.«401144_j75273596830171_2_alg».proof.Proof.LayerSpec
import proofs.«401144_j75273596830171_2_alg».proof.Proof.Payload
import Idealize.ShloMosaic.Lib.Pipeline.Value
import Idealize.ShloMosaic.Lib.ValueIdx

set_option maxRecDepth 16384

noncomputable section

open scoped BigOperators

namespace Cert.KernelIdeal.Output

open Idealize.ShloMosaic Idealize.ShloMosaic.TcCoe Idealize.SL.Sem Idealize.ShloMosaic.ValueIdx
open Idealize.ShloMosaic.Pipeline (Dat Cfg Window)
open Cert.KernelIdeal Cert.KernelIdeal.Gen

-- the contents of the core's buffers when the launch is entered
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The operand arrays, by their literal types -/

abbrev sArr (c : Dev nD) : FVec Ideal S50000x128 .f32 := V c main_v21
abbrev rArr (c : Dev nD) : FVec Ideal S50000x1 .f32 := V c main_v12
abbrev xArr (c : Dev nD) : FVec Ideal S50000x128 .f32 := V c main_v17
abbrev wlArr (c : Dev nD) : FVec Ideal S128x64 .f32 := V c main_arg5
abbrev wrArr (c : Dev nD) : FVec Ideal S128x64 .f32 := V c main_arg6
abbrev bArr (c : Dev nD) : FVec Ideal S64 .f32 := V c main_arg7

/-- The layer's feature array of the operand arrays. -/
abbrev layerArr (c : Dev nD) : FVec Ideal S50000x64 .f32 :=
  Cert.Sage.outputArr (sArr V c) (rArr V c) (xArr V c) (wlArr V c) (wrArr V c) (bArr V c)

/-! ## The printed index maps, decided once over the 10 grid points -/

theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem point_lt (t : Fin cfg1.N) : t.val < 10 := by
  have h : cfg1.N = 10 := N_1
  have := t.isLt
  omega

/-- Node `5000·t + p`: row `p` of block row `t`. -/
def row (t : Fin cfg1.N) (p : Fin 5000) : Fin 50000 := ⟨t.val * 5000 + p.val, by have := point_lt t; have := p.isLt; omega⟩

/-! ## Each operand block read where the result's block says -/

theorem read_s (c : Dev nD) (t : Fin cfg1.N) (p : Fin 5000) (k : Fin 128) :
    iblk1 V c 0 t (ix2 p k) = sArr V c (ix2 (row t p) k) := by
  obtain ⟨e0, e1, -⟩ := idx_facts t
  show V c main_v21 (((cfg1.win 0).blk t).view.emb (ix2 p k)) = V c main_v21 (ix2 (row t p) k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

theorem read_r (c : Dev nD) (t : Fin cfg1.N) (p : Fin 5000) :
    iblk1 V c 1 t (ix2 p (0 : Fin 1)) = rArr V c (ix2 (row t p) (0 : Fin 1)) := by
  obtain ⟨-, -, e0, e1, -⟩ := idx_facts t
  show V c main_v12 (((cfg1.win 1).blk t).view.emb (ix2 p (0 : Fin 1))) = V c main_v12 (ix2 (row t p) (0 : Fin 1))
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * 0 = 0; omega

theorem read_x (c : Dev nD) (t : Fin cfg1.N) (p : Fin 5000) (k : Fin 128) :
    iblk1 V c 2 t (ix2 p k) = xArr V c (ix2 (row t p) k) := by
  obtain ⟨-, -, -, -, e0, e1, -⟩ := idx_facts t
  show V c main_v17 (((cfg1.win 2).blk t).view.emb (ix2 p k)) = V c main_v17 (ix2 (row t p) k)
  refine congrArg _ (funext fun a => Fin.ext ?_)
  match a with
  | ⟨0, _⟩ => show win1_2.index t (0 : Fin 2) * 5000 + 1 * p.val = t.val * 5000 + p.val; omega
  | ⟨1, _⟩ => show win1_2.index t (1 : Fin 2) * 128 + 1 * k.val = k.val; omega

theorem read_wl (c : Dev nD) (t : Fin cfg1.N) (k : Fin 128) (q : Fin 64) :
    iblk1 V c 3 t (ix2 k q) = wlArr V c (ix2 k q) := by
  obtain ⟨-, -, -, -, -, -, e0, e1, -⟩ := idx_facts t
  show V c main_arg5 (((cfg1.win 3).blk t).view.emb (ix2 k q)) = V c main_arg5 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

theorem read_wr (c : Dev nD) (t : Fin cfg1.N) (k : Fin 128) (q : Fin 64) :
    iblk1 V c 4 t (ix2 k q) = wrArr V c (ix2 k q) := by
  obtain ⟨-, -, -, -, -, -, -, -, e0, e1, -⟩ := idx_facts t
  show V c main_arg6 (((cfg1.win 4).blk t).view.emb (ix2 k q)) = V c main_arg6 (ix2 k q)
  refine congrArg _ (funext fun a => Fin.ext ?_)
  match a with
  | ⟨0, _⟩ => show win1_4.index t (0 : Fin 2) * 128 + 1 * k.val = k.val; omega
  | ⟨1, _⟩ => show win1_4.index t (1 : Fin 2) * 64 + 1 * q.val = q.val; omega

theorem read_b (c : Dev nD) (t : Fin cfg1.N) (q : Fin 64) :
    iblk1 V c 5 t (ix1 q) = bArr V c (ix1 q) := by
  obtain ⟨-, -, -, -, -, -, -, -, -, -, e0, -⟩ := idx_facts t
  show V c main_arg7 (((cfg1.win 5).blk t).view.emb (ix1 q)) = V c main_arg7 (ix1 q)
  refine congrArg _ (funext fun a => Fin.ext ?_)
  match a with
  | ⟨0, _⟩ => show win1_5.index t (0 : Fin 1) * 64 + 1 * q.val = q.val; omega

/-- Row `p`, column `q` of the result's block at point `t` is entry (5000·t + p, q) of the array. -/
theorem emb_out (t : Fin cfg1.N) (p : Fin 5000) (q : Fin 64) :
    ((cfg1.win 6).blk t).view.emb (ix2 p q) = ix2 (row t p) q := by
  obtain ⟨-, -, -, -, -, -, -, -, -, -, -, e0, e1⟩ := idx_facts t
  refine funext fun a => Fin.ext ?_
  match a with
  | ⟨0, _⟩ => show win1_6.index t (0 : Fin 2) * 5000 + 1 * p.val = t.val * 5000 + p.val; omega
  | ⟨1, _⟩ => show win1_6.index t (1 : Fin 2) * 64 + 1 * q.val = q.val; omega

/-! ## What a point writes back -/

/-- Point `t` writes back block `t` of the layer's feature array. -/
theorem flushed_eq (c : Dev nD) (t : Fin cfg1.N) :
    (dat1 V c).flushed 6 t = ((cfg1.win 6).blk t).view.read (Elt Ideal) (layerArr V c) := by
  show (cfg1.win 6).cut (grid1.coords t) ((dat1 V c).after 6 t) = _
  rw [after1_6]
  unfold out1_6
  rw [View.canon_unit_zero hz2]
  simp only [View.ld_unit_zero (S := S5000x128) hz2, View.ld_unit_zero (S := S5000x1) hz2,
    View.ld_unit_zero (S := S128x64) hz2, View.ld_unit_zero (S := S64) hz1]
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
    = layerArr V c (((cfg1.win 6).blk t).view.emb (ix2 p q))
  rw [emb_out t p q]
  refine (Cert.Sage.Payload.output_payload_apply (iblk1 V c 0 t) (iblk1 V c 1 t) (iblk1 V c 2 t) (iblk1 V c 3 t)
    (iblk1 V c 4 t) (iblk1 V c 5 t) p q).trans ?_
  simp only [read_s V c t p, read_r V c t p, read_x V c t p, read_wl V c t, read_wr V c t, read_b V c t]
  rfl

/-! ## The blocks tile the array -/

theorem mem_blk (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v22).slice (win1_6.rect t)).set ↔ _
  rw [View.set_slice_whole, Rect.mem_set_unit]
  exact Iff.rfl

/-- Every entry of the result array is in the block of the point its row falls in. -/
theorem cover (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  let t : Fin cfg1.N := ⟨(i 0).val / 5000, by omega⟩
  obtain ⟨-, -, -, -, -, -, -, -, -, -, -, e0, e1⟩ := idx_facts t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-! ## The result array after the launch -/

/-- After the launch the result array holds the layer's feature array of the operand arrays as the launch found them. -/
theorem final (c : Dev nD) : (dat1 V c).arrAt 6 cfg1.N = layerArr V c :=
  (dat1 V c).arrAt_eq_of_cover 6 (layerArr V c) (fun t _ => flushed_eq V c t) cover

end Cert.KernelIdeal.Output

end
-- ==== Proof.KernelValue.lean ====
/-
  The kernel program's result as one function of its arguments, on the extended reals.

  The second launch leaves in the result array the output layer's feature array of what it found in its operands; those
  are the neighbour sums of the first launch's result, the reciprocal-degree column, the first launch's result itself,
  and the second layer's weights and bias. The first launch's result is the hidden layer's feature array of the neighbour
  sums of x, the same column, x, and the first layer's weights and bias.
-/
import proofs.«401144_j75273596830171_2_alg».proof.Proof.EntryContents
import proofs.«401144_j75273596830171_2_alg».proof.Proof.HiddenValue
import proofs.«401144_j75273596830171_2_alg».proof.Proof.OutputValue
import proofs.«401144_j75273596830171_2_alg».proof.Proof.KernelRun

set_option maxRecDepth 16384

noncomputable section

namespace Cert.KernelIdeal.Result

open Idealize.ShloMosaic Idealize.ShloMosaic.TcCoe Idealize.SL.Sem
open Cert.KernelIdeal Cert.KernelIdeal.Gen Cert.KernelIdeal.Entry

variable (m : (ℓ : Loc nD τ sig) → Buf (Elt Ideal) ℓ) (ρ : Dev nD → PrngReg)

/-- The hidden layer of the argument arrays. -/
def hidden (c : Dev nD) : FVec Ideal S50000x128 .f32 :=
  Cert.Sage.hiddenArr (gatherSum m (m ((c : Thread nD τ).loc main_arg0)) c) (invDeg m c) (m ((c : Thread nD τ).loc main_arg0))
    (m ((c : Thread nD τ).loc main_arg2)) (m ((c : Thread nD τ).loc main_arg3)) (m ((c : Thread nD τ).loc main_arg4))

/-- The output layer of the argument arrays. -/
def output (c : Dev nD) : FVec Ideal S50000x64 .f32 :=
  Cert.Sage.outputArr (gatherSum m (hidden m c) c) (invDeg m c) (hidden m c)
    (m ((c : Thread nD τ).loc main_arg5)) (m ((c : Thread nD τ).loc main_arg6)) (m ((c : Thread nD τ).loc main_arg7))

/-- What the first launch leaves in its result array is the hidden layer. -/
theorem hiddenOut_eq (c : Dev nD) : hiddenOut m ρ c = hidden m c := by
  show (dat0 (V3 m ρ) c).arrAt 6 cfg0.N = _
  rw [Cert.KernelIdeal.Hidden.final (V3 m ρ) c]
  show Cert.Sage.hiddenArr (V3 m ρ c main_v16) (V3 m ρ c main_v12) (V3 m ρ c main_arg0) (V3 m ρ c main_arg2) (V3 m ρ c main_arg3) (V3 m ρ c main_arg4) = _
  rw [V3_v16, V3_v12, V3_arg0, V3_arg2, V3_arg3, V3_arg4]
  rfl

/-- The result array at the last boundary is the output layer. -/
theorem result_eq (c : Dev nD) : W7 m ρ c (Proc.devRef .tc main_v22) = output m c := by
  rw [W7_v22, Cert.KernelIdeal.Output.final (V6 m ρ) c]
  show Cert.Sage.outputArr (V6 m ρ c main_v21) (V6 m ρ c main_v12) (V6 m ρ c main_v17) (V6 m ρ c main_arg5) (V6 m ρ c main_arg6) (V6 m ρ c main_arg7) = _
  rw [V6_v21, V6_v12, V6_v17, V6_arg5, V6_arg6, V6_arg7, hiddenOut_eq]
  rfl

/-- The kernel program's run with its result named: the output layer of the arguments, the arguments unchanged. -/
theorem run : θ_run defs (onTc (τ := τ) (main (F := Ideal))) ⟨m, fun _ => 0, ρ⟩ (fun r => ∀ c : Dev nD,
      r.2.mem ((c.tc : Thread nD τ).loc main_v22) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_eq m ρ c), (h c).2⟩)
    (Cert.KernelIdeal.RunValue.run_named (F := Ideal) m ρ)

end Cert.KernelIdeal.Result

end
-- ==== Proof.SourceIds.lean ====
/-
  The source-node ids of the edges, and what the precondition says of them.

  The edge list is a [2, 800000] array of 32-bit words; row 0 holds each edge's source node. The precondition's last
  conjunct says every such word is non-negative as a signed number. Under it, the usual "negative index counts from the
  end" normalisation (add 50000 to a negative id, keep a non-negative one) changes nothing.
-/
import proofs.«401144_j75273596830171_2_alg».proof.Pre_finite_inputs
import Idealize.ShloMosaic.Lib.StableHlo.Predicate
import Idealize.ShloMosaic.Lib.ReduceAll

noncomputable section

namespace Cert.Sage

open Idealize.ShloMosaic

/-- Row 0 of the edge list as a vector of 800000 words: a [1, 800000] slice, then the reshape to rank 1. -/
def srcIds (ei : IVec ⟨2, ![2, 800000]⟩ 32) (hs : (⟨2, ![2, 800000]⟩ : Shape).Slices ![0, 0] ⟨2, ![1, 800000]⟩)
    (hc : (⟨2, ![1, 800000]⟩ : Shape).ShapeCasts ⟨1, ![800000]⟩) : IVec ⟨1, ![800000]⟩ 32 :=
  shapeCast ⟨1, ![800000]⟩ (extractStridedSlice ⟨2, ![1, 800000]⟩ ![0, 0] ei hs) hc

/-- A word that is at least 0 as a signed number is not below 0 as a signed number. -/
theorem slt_zero_ne_one_of_sge_zero {x : BitVec 32} (h : IntOp.cmpi .sge x 0#32 = 1#1) :
    ¬ IntOp.cmpi .slt x 0#32 = 1 := by
  unfold IntOp.cmpi at h ⊢
  simp only [StableHlo.Predicate.ofBool_eq_one_iff, BitVec.sle, BitVec.slt, decide_eq_true_eq] at h
  intro hlt
  have hlt' : BitVec.ofBool (x.slt 0#32) = 1#1 := hlt
  simp only [StableHlo.Predicate.ofBool_eq_one_iff, BitVec.slt, decide_eq_true_eq] at hlt'
  omega

/-- Under the precondition every source id is non-negative (signed). -/
theorem srcIds_nonneg [Cert.Pre_finite_inputs.Facts] {F : FTy → Type} [FloatOps F]
    (a0 : FVec F ⟨2, ![50000, 128]⟩ .f32) (a1 : IVec ⟨2, ![2, 800000]⟩ 32) (a2 a3 : FVec F ⟨2, ![128, 128]⟩ .f32)
    (a4 : FVec F ⟨1, ![128]⟩ .f32) (a5 a6 : FVec F ⟨2, ![128, 64]⟩ .f32) (a7 : FVec F ⟨1, ![64]⟩ .f32)
    (h : Cert.Pre_finite_inputs.fn (F := F) a0 a1 a2 a3 a4 a5 a6 a7 = fun _ => 1#1)
    (hs : (⟨2, ![2, 800000]⟩ : Shape).Slices ![0, 0] ⟨2, ![1, 800000]⟩)
    (hc : (⟨2, ![1, 800000]⟩ : Shape).ShapeCasts ⟨1, ![800000]⟩) (e : (⟨1, ![800000]⟩ : Shape).Idx) :
    IntOp.cmpi .sge (srcIds a1 hs hc e) 0#32 = 1#1 := by
  -- the precondition's one word, at the rank-0 result's one index
  have h0 := congrFun h (fun d => d.elim0)
  dsimp only [Cert.Pre_finite_inputs.fn, Cert.Pre_finite_inputs.fn_part1, Cert.Pre_finite_inputs.fn_part2] at h0
  -- the outermost "and" has the signed comparison's all-reduction as its right operand
  have hall := (IntOp.andi_eq_one.1 h0).2
  -- the rank-0 shape has one index, so the reduction runs over every edge
  haveI : Subsingleton (Cert.Pre_finite_inputs.S_).Idx := ⟨fun a b => funext fun d => d.elim0⟩
  -- an all-reduction that is 1 had a 1 at every edge; the compared constant reads 0 at every edge
  exact Host.reduce_andi_all _ _ _ _ _ hall e

/-- Adding 50000 to the negative ids and keeping the others is the identity on a vector of non-negative ids. -/
theorem wrap_of_nonneg (v : IVec ⟨1, ![800000]⟩ 32)
    (hb : (⟨0, ![]⟩ : Shape).BroadcastsInDim ⟨1, ![800000]⟩ (![] : Fin 0 → Fin 1))
    (h : ∀ e, IntOp.cmpi .sge (v e) 0#32 = 1#1) :
    select (cmpi .slt v (broadcastInDim ⟨1, ![800000]⟩ ![] hb (constantI ⟨0, ![]⟩ 32 0#32)))
      (addi v (broadcastInDim ⟨1, ![800000]⟩ ![] hb (constantI ⟨0, ![]⟩ 32 50000#32))) v = v := by
  funext e
  -- at edge e the selection's condition is the signed test "v e < 0"
  show Scalar.select (IntOp.cmpi .slt (v e) 0#32) _ (v e) = v e
  unfold Scalar.select
  rw [if_neg (slt_zero_ne_one_of_sge_zero (h e))]

end Cert.Sage

end
-- ==== Proof.Bridge.lean ====
/-
  The reference's host program, stage by stage, against the kernel program's host terms.

  Both programs compute the in-degrees and the neighbour sums by the same scatter-adds and row gathers of the same edge
  list. They differ in three places only. (1) The reference normalises negative source ids (adds 50000) before it gathers;
  under the precondition no id is negative, so the normalised ids are the ids. (2) The reference divides the neighbour sum
  by the clamped degree where the kernel multiplies by the reciprocal it computed once; the clamped degree is at least 1,
  so never zero, and off zero the two are one product. (3) The reference adds the bias before the node's own term, the
  kernel after; addition of extended reals is commutative and associative.
-/
import proofs.«401144_j75273596830171_2_alg».proof.Proof.Gen.ReferenceIdeal.Read
import proofs.«401144_j75273596830171_2_alg».proof.Proof.EntryContents
import proofs.«401144_j75273596830171_2_alg».proof.Proof.LayerSpec
import proofs.«401144_j75273596830171_2_alg».proof.Proof.SourceIds
import Idealize.ShloMosaic.Lib.IdealHost
import Idealize.ShloMosaic.Lib.Pipeline.Value
import Idealize.ShloMosaic.Lib.ValueIdx

set_option maxRecDepth 16384

noncomputable section

open scoped BigOperators

namespace Cert.Sage.Bridge

open Idealize.ShloMosaic Idealize.ShloMosaic.TcCoe Idealize.SL.Sem Idealize.ShloMosaic.ValueIdx
open Cert.KernelIdeal.Entry Cert.ReferenceIdeal.Read

variable (m : (ℓ : Loc Cert.KernelIdeal.nD Cert.KernelIdeal.τ Cert.KernelIdeal.sig) → Buf (Elt Ideal) ℓ)
variable (c : Dev Cert.KernelIdeal.nD)

/-- The edge list, as the kernel program's launch memory holds it. -/
abbrev edges : IVec ⟨2, ![2, 800000]⟩ 32 := m ((c : Thread Cert.KernelIdeal.nD Cert.KernelIdeal.τ).loc Cert.KernelIdeal.main_arg1)

/-! ## The edge list's two rows, the degrees -/

theorem ref_src : val_main_v1 (F := Ideal) (edges m c) = srcVec m c := rfl
theorem ref_dst : val_main_v3 (F := Ideal) (edges m c) = dstVec m c := rfl

/-- (1), first layer: the normalised source ids are the source ids. -/
theorem ref_wrap1 (hsrc : ∀ e, IntOp.cmpi .sge (srcVec m c e) 0#32 = 1#1) :
    val_main_v12 (F := Ideal) (edges m c) = srcVec m c :=
  Cert.Sage.wrap_of_nonneg (srcVec m c) _ hsrc

/-- (1), second layer. -/
theorem ref_wrap2 (hsrc : ∀ e, IntOp.cmpi .sge (srcVec m c e) 0#32 = 1#1) :
    val_main_v38 (F := Ideal) (edges m c) = srcVec m c :=
  Cert.Sage.wrap_of_nonneg (srcVec m c) _ hsrc

/-- The reference's clamped degrees (first layer) are the kernel program's. -/
theorem ref_deg1 : val_main_v19 (F := Ideal) (edges m c) = degMax m c := rfl
/-- The reference's clamped degrees (second layer; it computes them again) are the kernel program's. -/
theorem ref_deg2 : val_main_v45 (F := Ideal) (edges m c) = degMax m c := rfl

/-- The reference's first neighbour sum is the kernel program's: the same gather at the same ids, the same scatter-add. -/
theorem ref_sum1 (hsrc : ∀ e, IntOp.cmpi .sge (srcVec m c e) 0#32 = 1#1)
    (x0 : FVec Ideal ⟨2, ![50000, 128]⟩ .f32) :
    val_main_v17 (F := Ideal) x0 (edges m c) = gatherSum m x0 c := by
  unfold val_main_v17 val_main_v14 val_main_v13
  rw [ref_wrap1 m c hsrc]
  rfl

/-- The reference's second neighbour sum, of whatever hidden layer `h` it gathers from. -/
theorem ref_sum2 (hsrc : ∀ e, IntOp.cmpi .sge (srcVec m c e) 0#32 = 1#1)
    (x0 : FVec Ideal ⟨2, ![50000, 128]⟩ .f32) (x2 x3 : FVec Ideal ⟨2, ![128, 128]⟩ .f32) (x4 : FVec Ideal ⟨1, ![128]⟩ .f32) :
    val_main_v43 (F := Ideal) x0 (edges m c) x2 x3 x4 = gatherSum m (val_main_v29 (F := Ideal) x0 (edges m c) x2 x3 x4) c := by
  unfold val_main_v43 val_main_v40 val_main_v39
  rw [ref_wrap2 m c hsrc]
  rfl

/-! ## The reciprocal-degree column read at a row, and (2) -/

/-- The clamped degree at a node is never zero. -/
theorem degMax_ne_zero (j : (⟨1, ![50000]⟩ : Shape).Idx) : degMax (F := Ideal) m c j ≠ 0 := by
  unfold degMax
  rw [maximumf_apply, broadcastInDim_scalar_apply]
  show max _ (Ideal.ofBits .f32 0x3F800000#32) ≠ 0
  rw [Ideal.ofBits_one_f32]
  exact Cert.Sage.max_one_ne_zero _

/-- The reciprocal-degree column at row `p` is `1 / (clamped degree of p)`. -/
theorem invDeg_apply (p : Fin 50000) :
    invDeg (F := Ideal) m c (ix2 p (0 : Fin 1)) = Ideal.div 1 (degMax (F := Ideal) m c (ix1 p)) := by
  unfold invDeg
  rw [broadcastInDim_apply _ _ _ (ix2 p (0 : Fin 1)) (ix1 p) (fun a => match a with
    | ⟨0, _⟩ => by show p.val = if (50000 : Nat) = 1 then 0 else p.val; rw [if_neg (by decide)])]
  rw [hostDivf_apply, broadcastInDim_scalar_apply]
  show Ideal.div (Ideal.ofBits .f32 0x3F800000#32) _ = _
  rw [Ideal.ofBits_one_f32]

/-! ## The two layers -/

/-- (2): a neighbour sum's entry over the clamped degree is its product with the reciprocal. -/
theorem div_degMax (s : EReal) (j : (⟨1, ![50000]⟩ : Shape).Idx) :
    Ideal.div s (degMax (F := Ideal) m c j) = s * Ideal.div 1 (degMax (F := Ideal) m c j) :=
  (Ideal.mul_one_div (degMax_ne_zero m c j)).symm

/-- The degree column broadcast along the features reads, at (p, k), the degree of node p (first layer's copy). -/
theorem deg_idx1 (p : Fin 50000) (k : Fin 128) :
    idx_main_v20 (idx_main_v21 (ix2 p k)) = (ix1 p : (⟨1, ![50000]⟩ : Shape).Idx) :=
  funext fun a => match a with | ⟨0, _⟩ => rfl

/-- The same for the second layer's copy. -/
theorem deg_idx2 (p : Fin 50000) (k : Fin 128) :
    idx_main_v46 (idx_main_v47 (ix2 p k)) = (ix1 p : (⟨1, ![50000]⟩ : Shape).Idx) :=
  funext fun a => match a with | ⟨0, _⟩ => rfl

/-- One entry of the reference's first mean aggregate: the kernel program's neighbour sum there times the
    reciprocal-degree column at that row. -/
theorem ref_mean1 (hsrc : ∀ e, IntOp.cmpi .sge (srcVec m c e) 0#32 = 1#1)
    (x0 : FVec Ideal ⟨2, ![50000, 128]⟩ .f32) (p : Fin 50000) (k : Fin 128) :
    val_main_v22 (F := Ideal) x0 (edges m c) (ix2 p k) = gatherSum m x0 c (ix2 p k) * invDeg m c (ix2 p (0 : Fin 1)) := by
  rw [val_main_v22_apply, val_main_v21_apply, val_main_v20_apply, deg_idx1, ref_sum1 m c hsrc, ref_deg1 m c, invDeg_apply]
  exact div_degMax m c _ (ix1 p)

/-- One entry of the reference's second mean aggregate, likewise, over the hidden layer it gathers from. -/
theorem ref_mean2 (hsrc : ∀ e, IntOp.cmpi .sge (srcVec m c e) 0#32 = 1#1)
    (x0 : FVec Ideal ⟨2, ![50000, 128]⟩ .f32) (x2 x3 : FVec Ideal ⟨2, ![128, 128]⟩ .f32) (x4 : FVec Ideal ⟨1, ![128]⟩ .f32)
    (p : Fin 50000) (k : Fin 128) :
    val_main_v48 (F := Ideal) x0 (edges m c) x2 x3 x4 (ix2 p k)
      = gatherSum m (val_main_v29 (F := Ideal) x0 (edges m c) x2 x3 x4) c (ix2 p k) * invDeg m c (ix2 p (0 : Fin 1)) := by
  rw [val_main_v48_apply, val_main_v47_apply, val_main_v46_apply, deg_idx2, ref_sum2 m c hsrc, ref_deg2 m c, invDeg_apply]
  exact div_degMax m c _ (ix1 p)

/-- The reference's hidden layer is the hidden layer's feature array of the kernel program's host terms. -/
theorem ref_hidden (hsrc : ∀ e, IntOp.cmpi .sge (srcVec m c e) 0#32 = 1#1)
    (x0 : FVec Ideal ⟨2, ![50000, 128]⟩ .f32) (x2 x3 : FVec Ideal ⟨2, ![128, 128]⟩ .f32) (x4 : FVec Ideal ⟨1, ![128]⟩ .f32) :
    val_main_v29 (F := Ideal) x0 (edges m c) x2 x3 x4 = Cert.Sage.hiddenArr (gatherSum m x0 c) (invDeg m c) x0 x2 x3 x4 := by
  funext i
  obtain ⟨p, q, rfl⟩ : ∃ (p : Fin 50000) (q : Fin 128), i = ix2 p q := ⟨i 0, i 1, eq_ix2 i⟩
  rw [val_main_v29_apply, val_main_v28_apply, val_main_v26_apply, val_main_v23_apply, val_main_v27_apply, val_main_v25_apply,
    val_main_v24_apply, val_main_call0_v0_apply, val_main_call0_cst_apply]
  have el : ∀ k : Fin 128, lidx_main_v23 (ix2 p q) k = ix2 p k := fun k => funext fun a => match a with | ⟨0, _⟩ => rfl | ⟨1, _⟩ => rfl
  have er : ∀ k : Fin 128, ridx_main_v23 (ix2 p q) k = ix2 k q := fun k => funext fun a => match a with | ⟨0, _⟩ => rfl | ⟨1, _⟩ => rfl
  have el' : ∀ k : Fin 128, lidx_main_v27 (ix2 p q) k = ix2 p k := fun k => funext fun a => match a with | ⟨0, _⟩ => rfl | ⟨1, _⟩ => rfl
  have er' : ∀ k : Fin 128, ridx_main_v27 (ix2 p q) k = ix2 k q := fun k => funext fun a => match a with | ⟨0, _⟩ => rfl | ⟨1, _⟩ => rfl
  have eb : idx_main_v24 (idx_main_v25 (ix2 p q)) = (ix1 q : (⟨1, ![128]⟩ : Shape).Idx) := funext fun a => match a with | ⟨0, _⟩ => rfl
  have hA : (∑ k : Fin 128, val_main_v22 (F := Ideal) x0 (edges m c) (lidx_main_v23 (ix2 p q) k) * x2 (ridx_main_v23 (ix2 p q) k))
      = ∑ k : Fin 128, (gatherSum m x0 c (ix2 p k) * invDeg m c (ix2 p (0 : Fin 1))) * x2 (ix2 k q) :=
    Finset.sum_congr rfl fun k _ => by rw [el, er, ref_mean1 m c hsrc x0 p k]
  have hX : (∑ k : Fin 128, x0 (lidx_main_v27 (ix2 p q) k) * x3 (ridx_main_v27 (ix2 p q) k))
      = ∑ k : Fin 128, x0 (ix2 p k) * x3 (ix2 k q) :=
    Finset.sum_congr rfl fun k _ => by rw [el', er']
  rw [hA, hX, eb, Ideal.maximumf_def, Ideal.addf_def, Ideal.addf_def, Ideal.ofBits_def, Ideal.ofBits_zero_f32,
    Cert.Sage.add_bias_comm]
  rfl

/-- The reference's result is the output layer's feature array over the hidden layer it computed. -/
theorem ref_output (hsrc : ∀ e, IntOp.cmpi .sge (srcVec m c e) 0#32 = 1#1)
    (x0 : FVec Ideal ⟨2, ![50000, 128]⟩ .f32) (x2 x3 : FVec Ideal ⟨2, ![128, 128]⟩ .f32) (x4 : FVec Ideal ⟨1, ![128]⟩ .f32)
    (x5 x6 : FVec Ideal ⟨2, ![128, 64]⟩ .f32) (x7 : FVec Ideal ⟨1, ![64]⟩ .f32) :
    val_main_v54 (F := Ideal) x0 (edges m c) x2 x3 x4 x5 x6 x7
      = Cert.Sage.outputArr (gatherSum m (val_main_v29 (F := Ideal) x0 (edges m c) x2 x3 x4) c) (invDeg m c)
          (val_main_v29 (F := Ideal) x0 (edges m c) x2 x3 x4) x5 x6 x7 := by
  funext i
  obtain ⟨p, q, rfl⟩ : ∃ (p : Fin 50000) (q : Fin 64), i = ix2 p q := ⟨i 0, i 1, eq_ix2 i⟩
  rw [val_main_v54_apply, val_main_v52_apply, val_main_v49_apply, val_main_v53_apply, val_main_v51_apply, val_main_v50_apply]
  have el : ∀ k : Fin 128, lidx_main_v49 (ix2 p q) k = ix2 p k := fun k => funext fun a => match a with | ⟨0, _⟩ => rfl | ⟨1, _⟩ => rfl
  have er : ∀ k : Fin 128, ridx_main_v49 (ix2 p q) k = ix2 k q := fun k => funext fun a => match a with | ⟨0, _⟩ => rfl | ⟨1, _⟩ => rfl
  have el' : ∀ k : Fin 128, lidx_main_v53 (ix2 p q) k = ix2 p k := fun k => funext fun a => match a with | ⟨0, _⟩ => rfl | ⟨1, _⟩ => rfl
  have er' : ∀ k : Fin 128, ridx_main_v53 (ix2 p q) k = ix2 k q := fun k => funext fun a => match a with | ⟨0, _⟩ => rfl | ⟨1, _⟩ => rfl
  have eb : idx_main_v50 (idx_main_v51 (ix2 p q)) = (ix1 q : (⟨1, ![64]⟩ : Shape).Idx) := funext fun a => match a with | ⟨0, _⟩ => rfl
  have hA : (∑ k : Fin 128, val_main_v48 (F := Ideal) x0 (edges m c) x2 x3 x4 (lidx_main_v49 (ix2 p q) k) * x5 (ridx_main_v49 (ix2 p q) k))
      = ∑ k : Fin 128, (gatherSum m (val_main_v29 (F := Ideal) x0 (edges m c) x2 x3 x4) c (ix2 p k) * invDeg m c (ix2 p (0 : Fin 1))) * x5 (ix2 k q) :=
    Finset.sum_congr rfl fun k _ => by rw [el, er, ref_mean2 m c hsrc x0 x2 x3 x4 p k]
  have hX : (∑ k : Fin 128, val_main_v29 (F := Ideal) x0 (edges m c) x2 x3 x4 (lidx_main_v53 (ix2 p q) k) * x6 (ridx_main_v53 (ix2 p q) k))
      = ∑ k : Fin 128, val_main_v29 (F := Ideal) x0 (edges m c) x2 x3 x4 (ix2 p k) * x6 (ix2 k q) :=
    Finset.sum_congr rfl fun k _ => by rw [el', er']
  rw [hA, hX, eb, Ideal.addf_def, Ideal.addf_def, Cert.Sage.add_bias_comm]
  rfl

end Cert.Sage.Bridge

end
-- ==== Proof.Equal.lean ====
/-
  The two programs compute one function.

  From memories that agree on the arguments, the kernel program ends with its result array at the output layer of the
  arguments (the two launches' closed forms over the host's neighbour sums and reciprocal degrees), and the reference ends
  with its result at the same array: its stages are the same gathers and scatter-adds once the source ids are known to be
  non-negative, a quotient by a clamped degree that is a product with its reciprocal, and the same sums in another order.
-/
import proofs.«401144_j75273596830171_2_alg».proof.Defs
import proofs.«401144_j75273596830171_2_alg».proof.Proof.Gen.KernelIdeal
import proofs.«401144_j75273596830171_2_alg».proof.Proof.Gen.ReferenceIdeal
import proofs.«401144_j75273596830171_2_alg».proof.Proof.Gen.ReferenceIdeal.Run
import proofs.«401144_j75273596830171_2_alg».proof.Proof.Gen.ReferenceIdeal.Read
import proofs.«401144_j75273596830171_2_alg».proof.Proof.Gen.Pre_finite_inputs
import proofs.«401144_j75273596830171_2_alg».proof.Proof.KernelValue
import proofs.«401144_j75273596830171_2_alg».proof.Proof.Bridge
import proofs.«401144_j75273596830171_2_alg».proof.Proof.SourceIds

set_option maxRecDepth 16384

noncomputable section

namespace Cert.Proof.Equal

open Idealize.ShloMosaic Idealize.ShloMosaic.TcCoe Idealize.SL.Sem
open Cert.KernelIdeal.Entry

/-- The reference's result stage, at the kernel program's arguments, is the kernel program's result. -/
theorem ref_eq_kernel (m : (ℓ : Loc Cert.KernelIdeal.nD Cert.KernelIdeal.τ Cert.KernelIdeal.sig) → Buf (Elt Ideal) ℓ)
    (c : Dev Cert.KernelIdeal.nD) (hsrc : ∀ e, IntOp.cmpi .sge (srcVec m c e) 0#32 = 1#1) :
    Cert.ReferenceIdeal.Read.val_main_v54 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.Result.output m c := by
  refine (Cert.Sage.Bridge.ref_output m c hsrc _ _ _ _ _ _ _).trans ?_
  rw [Cert.Sage.Bridge.ref_hidden m c hsrc]
  rfl

/-- From memories agreeing on the arguments both programs run, and end with equal results and unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hsrc : ∀ (c : Dev Cert.KernelIdeal.nD) (e : (⟨1, ![800000]⟩ : Shape).Idx),
      IntOp.cmpi .sge (srcVec m c e) 0#32 = 1#1 := fun c e =>
    Cert.Sage.srcIds_nonneg _ _ _ _ _ _ _ _ (hpre c) _ _ e
  refine ⟨fun c => Cert.KernelIdeal.Result.output m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact ref_eq_kernel m c (hsrc c)

end Cert.Proof.Equal

end
-- ==== Proof.lean ====
/-
  A two-layer mean-aggregating graph convolution over 50000 nodes and 800000 edges: the kernel program (the degree
  reciprocals and the neighbour sums on the host, then one launch per layer for the dense part) against the plain
  reference, over the extended reals.

  Per layer, for node p and output feature q, with s the sum of the neighbours' features and d the in-degree clamped
  below at 1:   (Σ_k (s[p,k] / d[p]) · Wl[k,q]) + b[q] + Σ_k x[p,k] · Wr[k,q],   clamped below at 0 for the hidden layer.
  The kernel program multiplies by 1/d[p] where the reference divides (d[p] ≥ 1 is never zero, so both are s · d⁻¹),
  adds the bias last where the reference adds it second (addition is commutative and associative), and gathers the
  neighbours by the raw source ids where the reference first adds 50000 to the negative ones: the precondition says no
  source id is negative, so the two index vectors are one. The gathers and scatter-adds themselves are the same
  operations of the same operands on both sides and are never opened.

  Frames: the kernel programs' are the generated ones; the reference's is its generated run with the result dropped.
  The idealization rewrote no operation, so there is nothing to preserve. The equality of results is Proof/Equal.lean.
-/
import proofs.«401144_j75273596830171_2_alg».proof.Defs
import proofs.«401144_j75273596830171_2_alg».proof.Proof.Gen.Kernel
import proofs.«401144_j75273596830171_2_alg».proof.Proof.Gen.Kernel.Skeleton
import proofs.«401144_j75273596830171_2_alg».proof.Proof.Gen.Kernel.Launch
import proofs.«401144_j75273596830171_2_alg».proof.Proof.Gen.Kernel.Points
import proofs.«401144_j75273596830171_2_alg».proof.Proof.Gen.Kernel.Frame
import proofs.«401144_j75273596830171_2_alg».proof.Proof.Gen.KernelIdeal
import proofs.«401144_j75273596830171_2_alg».proof.Proof.Gen.KernelIdeal.Skeleton
import proofs.«401144_j75273596830171_2_alg».proof.Proof.Gen.KernelIdeal.Launch
import proofs.«401144_j75273596830171_2_alg».proof.Proof.Gen.KernelIdeal.Points
import proofs.«401144_j75273596830171_2_alg».proof.Proof.Gen.KernelIdeal.Frame
import proofs.«401144_j75273596830171_2_alg».proof.Proof.Gen.ReferenceIdeal
import proofs.«401144_j75273596830171_2_alg».proof.Proof.Gen.ReferenceIdeal.Run
import proofs.«401144_j75273596830171_2_alg».proof.Proof.Gen.ReferenceIdeal.Read
import proofs.«401144_j75273596830171_2_alg».proof.Proof.Gen.Pre_finite_inputs
import proofs.«401144_j75273596830171_2_alg».proof.Proof.Equal
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  Cert.Proof.Equal.algebraic⟩

end Cert.Proof

end
